-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S785x128 : Shape := ⟨2, ![785, 128]⟩
abbrev S129x64 : Shape := ⟨2, ![129, 64]⟩
abbrev S65x10 : Shape := ⟨2, ![65, 10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S785x128 : S_.BroadcastsInDim S785x128 (![] : Fin 0 → Fin S785x128.rank)
  reducesTo_S785x128_S_d0_1 : S785x128.ReducesTo [0, 1] S_
  bcast_S_S129x64 : S_.BroadcastsInDim S129x64 (![] : Fin 0 → Fin S129x64.rank)
  reducesTo_S129x64_S_d0_1 : S129x64.ReducesTo [0, 1] S_
  bcast_S_S65x10 : S_.BroadcastsInDim S65x10 (![] : Fin 0 → Fin S65x10.rank)
  reducesTo_S65x10_S_d0_1 : S65x10.ReducesTo [0, 1] S_

variable [Facts]

def fn_part1 {F : FTy → Type} [FloatOps F] (main_v13 : IVec S_ 1) (main_v16 : IVec S65x10 1) : IVec S_ 1 :=
  let main_c_5 : IVec S_ 1 := constantI S_ 1 1#1
  let main_v17 : IVec S_ 1 := (fun x v => Host.reduce IntOp.andi x v reducesTo_S65x10_S_d0_1 h_S_) main_v16 main_c_5
  let main_v18 : IVec S_ 1 := andi main_v13 main_v17
  main_v18

def fn {F : FTy → Type} [FloatOps F] (main_arg0 : FVec F S65536x784 .f32) (main_arg1 : FVec F S785x128 .f32) (main_arg2 : FVec F S129x64 .f32) (main_arg3 : FVec F S65x10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S785x128 .f32 := Host.absf main_arg1
  let main_cst_0 : FVec F S_ .f32 := constant S_ .f32 0x7F800000#32
  let main_v5 : FVec F S785x128 .f32 := broadcastInDim S785x128 ![] bcast_S_S785x128 main_cst_0
  let main_v6 : IVec S785x128 1 := cmpf .olt main_v4 main_v5
  let main_c_1 : IVec S_ 1 := constantI S_ 1 1#1
  let main_v7 : IVec S_ 1 := (fun x v => Host.reduce IntOp.andi x v reducesTo_S785x128_S_d0_1 h_S_) main_v6 main_c_1
  let main_v8 : IVec S_ 1 := andi main_v3 main_v7
  let main_v9 : FVec F S129x64 .f32 := Host.absf main_arg2
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S65x10 .f32 := Host.absf main_arg3
  let main_cst_4 : FVec F S_ .f32 := constant S_ .f32 0x7F800000#32
  let main_v15 : FVec F S65x10 .f32 := broadcastInDim S65x10 ![] bcast_S_S65x10 main_cst_4
  let main_v16 : IVec S65x10 1 := cmpf .olt main_v14 main_v15
  fn_part1 (F := F) main_v13 main_v16
-- ==== Kernel.lean ====
abbrev S65536x784 : Shape := ⟨2, ![65536, 784]⟩
abbrev S785x128 : Shape := ⟨2, ![785, 128]⟩
abbrev S129x64 : Shape := ⟨2, ![129, 64]⟩
abbrev S65x10 : Shape := ⟨2, ![65, 10]⟩
abbrev S784x128 : Shape := ⟨2, ![784, 128]⟩
abbrev S1x128 : Shape := ⟨2, ![1, 128]⟩
abbrev S128x64 : Shape := ⟨2, ![128, 64]⟩
abbrev S1x64 : Shape := ⟨2, ![1, 64]⟩
abbrev S64x10 : Shape := ⟨2, ![64, 10]⟩
abbrev S1x10 : Shape := ⟨2, ![1, 10]⟩
abbrev S65536x10 : Shape := ⟨2, ![65536, 10]⟩
abbrev S4096x784 : Shape := ⟨2, ![4096, 784]⟩
abbrev S4096x10 : Shape := ⟨2, ![4096, 10]⟩
abbrev S4096x128 : Shape := ⟨2, ![4096, 128]⟩
abbrev S4096x64 : Shape := ⟨2, ![4096, 64]⟩

abbrev nBuf : Space → Nat
  | .hbm => 11
  | .vmem => 10
  | .smem => 0
  | _ => 0

abbrev bufTy : (tb : Table) → Fin (tcTables nBuf tb) → BufTy
  | .hbm, ⟨0, _⟩ => ⟨S65536x784, .f32⟩
  | .hbm, ⟨1, _⟩ => ⟨S785x128, .f32⟩
  | .hbm, ⟨2, _⟩ => ⟨S129x64, .f32⟩
  | .hbm, ⟨3, _⟩ => ⟨S65x10, .f32⟩
  | .hbm, ⟨4, _⟩ => ⟨S784x128, .f32⟩
  | .hbm, ⟨5, _⟩ => ⟨S1x128, .f32⟩
  | .hbm, ⟨6, _⟩ => ⟨S128x64, .f32⟩
  | .hbm, ⟨7, _⟩ => ⟨S1x64, .f32⟩
  | .hbm, ⟨8, _⟩ => ⟨S64x10, .f32⟩
  | .hbm, ⟨9, _⟩ => ⟨S1x10, .f32⟩
  | .hbm, ⟨10, _⟩ => ⟨S65536x10, .f32⟩
  | .local _ .vmem, ⟨0, _⟩ => ⟨S4096x784, .f32⟩
  | .local _ .vmem, ⟨1, _⟩ => ⟨S4096x784, .f32⟩
  | .local _ .vmem, ⟨2, _⟩ => ⟨S784x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x10, .f32⟩
  | .local _ .vmem, ⟨7, _⟩ => ⟨S1x10, .f32⟩
  | .local _ .vmem, ⟨8, _⟩ => ⟨S4096x10, .f32⟩
  | .local _ .vmem, ⟨9, _⟩ => ⟨S4096x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S785x128_S784x128_0_0 : S785x128.Slices ![0, 0] S784x128
  slices_S785x128_S1x128_784_0 : S785x128.Slices ![784, 0] S1x128
  slices_S129x64_S128x64_0_0 : S129x64.Slices ![0, 0] S128x64
  slices_S129x64_S1x64_128_0 : S129x64.Slices ![128, 0] S1x64
  slices_S65x10_S64x10_0_0 : S65x10.Slices ![0, 0] S64x10
  slices_S65x10_S1x10_64_0 : S65x10.Slices ![64, 0] S1x10
  inb_S4096x784_S4096x784_0_0 : ∀ a, (![0, 0] : Fin 2 → Nat) a + S4096x784.size a ≤ S4096x784.size a
  h_S4096x784 : 0 < S4096x784.numel
  inb_S784x128_S784x128_0_0 : ∀ a, (![0, 0] : Fin 2 → Nat) a + S784x128.size a ≤ S784x128.size a
  h_S784x128 : 0 < S784x128.numel
  shapeCasts_S784x128_S784x128 : S784x128.ShapeCasts S784x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4096x10 : S1x10.Broadcasts S4096x10
  inb_S4096x10_S4096x10_0_0 : ∀ a, (![0, 0] : Fin 2 → Nat) a + S4096x10.size a ≤ S4096x10.size a
  h_S4096x10 : 0 < S4096x10.numel
  dot_S4096x784_S784x128_S4096x128_1_0_0_1_n_n_wf : DotDims.WF S4096x784 S784x128 S4096x128 [1] [0] [0] [1] [] []
  dot_S4096x128_S128x64_S4096x64_1_0_0_1_n_n_wf : DotDims.WF S4096x128 S128x64 S4096x64 [1] [0] [0] [1] [] []
  dot_S4096x64_S64x10_S4096x10_1_0_0_1_n_n_wf : DotDims.WF S4096x64 S64x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x784.size a ≤ S65536x784.size a
  hwx0_0 : ∀ i : grid0.Coords, EltTy.bits .f32 = 32 ∨ (Rect.block (s := S65536x784) S4096x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x128.size a ≤ S784x128.size a
  hwx0_1 : ∀ i : grid0.Coords, EltTy.bits .f32 = 32 ∨ (Rect.block (s := S784x128) S784x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x10.size a ≤ S64x10.size a
  hwx0_5 : ∀ i : grid0.Coords, EltTy.bits .f32 = 32 ∨ (Rect.block (s := S64x10) S64x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x10.size a ≤ S65536x10.size a
  hwx0_7 : ∀ i : grid0.Coords, EltTy.bits .f32 = 32 ∨ (Rect.block (s := S65536x10) S4096x10.size (cc0_transform_7 i) (hinb0_7 i)).WholeWords (EltTy.packing .f32)

variable [Facts₀]

def dot_S4096x784_S784x128_S4096x128_1_0_0_1_n_n : DotDims S4096x784 S784x128 S4096x128 where
  lhsContracting := [1]
  rhsContracting := [0]
  lhsNonContracting := [0]
  rhsNonContracting := [1]
  lhsBatch := []
  rhsBatch := []
  wf := dot_S4096x784_S784x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x10_S4096x10_1_0_0_1_n_n : DotDims S4096x64 S64x10 S4096x10 where
  lhsContracting := [1]
  rhsContracting := [0]
  lhsNonContracting := [0]
  rhsNonContracting := [1]
  lhsBatch := []
  rhsBatch := []
  wf := dot_S4096x64_S64x10_S4096x10_1_0_0_1_n_n_wf

abbrev win0_0 : Pipeline.Window sig grid0 :=
  Pipeline.Window.ofSpec (Memref.whole main_arg0) S4096x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S784x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4096x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x784 : Shape := ⟨2, ![65536, 784]⟩
abbrev S785x128 : Shape := ⟨2, ![785, 128]⟩
abbrev S129x64 : Shape := ⟨2, ![129, 64]⟩
abbrev S65x10 : Shape := ⟨2, ![65, 10]⟩
abbrev S_ : Shape := ⟨0, ![]⟩
abbrev S65536x1 : Shape := ⟨2, ![65536, 1]⟩
abbrev S65536x785 : Shape := ⟨2, ![65536, 785]⟩
abbrev S65536x128 : Shape := ⟨2, ![65536, 128]⟩
abbrev S65536x129 : Shape := ⟨2, ![65536, 129]⟩
abbrev S65536x64 : Shape := ⟨2, ![65536, 64]⟩
abbrev S65536x65 : Shape := ⟨2, ![65536, 65]⟩
abbrev S65536x10 : Shape := ⟨2, ![65536, 10]⟩

abbrev nBuf : Space → Nat
  | .hbm => 22
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S785x128, .f32⟩
  | .hbm, ⟨2, _⟩ => ⟨S129x64, .f32⟩
  | .hbm, ⟨3, _⟩ => ⟨S65x10, .f32⟩
  | .hbm, ⟨4, _⟩ => ⟨S_, .f32⟩
  | .hbm, ⟨5, _⟩ => ⟨S65536x1, .f32⟩
  | .hbm, ⟨6, _⟩ => ⟨S65536x785, .f32⟩
  | .hbm, ⟨7, _⟩ => ⟨S65536x128, .f32⟩
  | .hbm, ⟨8, _⟩ => ⟨S_, .f32⟩
  | .hbm, ⟨9, _⟩ => ⟨S65536x128, .f32⟩
  | .hbm, ⟨10, _⟩ => ⟨S65536x128, .f32⟩
  | .hbm, ⟨11, _⟩ => ⟨S_, .f32⟩
  | .hbm, ⟨12, _⟩ => ⟨S65536x1, .f32⟩
  | .hbm, ⟨13, _⟩ => ⟨S65536x129, .f32⟩
  | .hbm, ⟨14, _⟩ => ⟨S65536x64, .f32⟩
  | .hbm, ⟨15, _⟩ => ⟨S_, .f32⟩
  | .hbm, ⟨16, _⟩ => ⟨S65536x64, .f32⟩
  | .hbm, ⟨17, _⟩ => ⟨S65536x64, .f32⟩
  | .hbm, ⟨18, _⟩ => ⟨S_, .f32⟩
  | .hbm, ⟨19, _⟩ => ⟨S65536x1, .f32⟩
  | .hbm, ⟨20, _⟩ => ⟨S65536x65, .f32⟩
  | .hbm, ⟨21, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S_S65536x1 : S_.BroadcastsInDim S65536x1 (![] : Fin 0 → Fin S65536x1.rank)
  concatenates_S65536x784_S65536x1_S65536x785_d1 : Shape.Concatenates [S65536x784, S65536x1] S65536x785 1
  bcast_S_S65536x128 : S_.BroadcastsInDim S65536x128 (![] : Fin 0 → Fin S65536x128.rank)
  concatenates_S65536x128_S65536x1_S65536x129_d1 : Shape.Concatenates [S65536x128, S65536x1] S65536x129 1
  bcast_S_S65536x64 : S_.BroadcastsInDim S65536x64 (![] : Fin 0 → Fin S65536x64.rank)
  concatenates_S65536x64_S65536x1_S65536x65_d1 : Shape.Concatenates [S65536x64, S65536x1] S65536x65 1
  dot_S65536x785_S785x128_S65536x128_1_0_0_1_n_n_wf : DotDims.WF S65536x785 S785x128 S65536x128 [1] [0] [0] [1] [] []
  dot_S65536x129_S129x64_S65536x64_1_0_0_1_n_n_wf : DotDims.WF S65536x129 S129x64 S65536x64 [1] [0] [0] [1] [] []
  dot_S65536x65_S65x10_S65536x10_1_0_0_1_n_n_wf : DotDims.WF S65536x65 S65x10 S65536x10 [1] [0] [0] [1] [] []

variable [Facts₀]

def dot_S65536x785_S785x128_S65536x128_1_0_0_1_n_n : DotDims S65536x785 S785x128 S65536x128 where
  lhsContracting := [1]
  rhsContracting := [0]
  lhsNonContracting := [0]
  rhsNonContracting := [1]
  lhsBatch := []
  rhsBatch := []
  wf := dot_S65536x785_S785x128_S65536x128_1_0_0_1_n_n_wf
def dot_S65536x129_S129x64_S65536x64_1_0_0_1_n_n : DotDims S65536x129 S129x64 S65536x64 where
  lhsContracting := [1]
  rhsContracting := [0]
  lhsNonContracting := [0]
  rhsNonContracting := [1]
  lhsBatch := []
  rhsBatch := []
  wf := dot_S65536x129_S129x64_S65536x64_1_0_0_1_n_n_wf
def dot_S65536x65_S65x10_S65536x10_1_0_0_1_n_n : DotDims S65536x65 S65x10 S65536x10 where
  lhsContracting := [1]
  rhsContracting := [0]
  lhsNonContracting := [0]
  rhsNonContracting := [1]
  lhsBatch := []
  rhsBatch := []
  wf := dot_S65536x65_S65x10_S65536x10_1_0_0_1_n_n_wf

class Facts : Prop extends Facts₀ where

variable [Facts]
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.LibDense.lean ====
/-
  A dense layer whose bias is stored as the last row of its weight matrix.

  For an activation matrix A of M rows and K columns and a weight matrix W of K + 1 rows and N columns, the layer's
  entry at (r, c) is
        sum over k < K of A (r, k) * W (k, c)   +   W (K, c).
  Two spellings of it meet here, both on the extended reals:
    * a column of ones is appended to A and the widened matrix is multiplied with the whole of W: the sum over
      k < K + 1 splits off its last term, which is 1 * W (K, c) = W (K, c); only the commutative monoid of the
      extended reals under + and the law 1 * w = w are used, so no entry has to be finite;
    * W is cut into its first K rows and its last row, A is multiplied with the first and the second is added to
      every row of the product.
  The rectifier takes each entry's maximum with the value of the zero word.  A layer's row r depends on row r of A
  only, so a block of rows of the input gives the same block of rows of the output (`layer_row`, and the hypothesis `hA` of
  `affine_eq_layer`): a kernel that works on blocks of rows produces blocks of rows of the whole result.
  Generic in the extents M, K, N; the widened extent K' is given with the equation K' = K + 1.
-/
import proofs.«130961_j10574209483163_1_alg».proof.Proof.LibPlainDot
import Idealize.ShloMosaic.Lib.Pipeline.Value
import Idealize.ShloMosaic.Lib.IdealHost

noncomputable section

namespace Cert.Dense

open Idealize.ShloMosaic Idealize.ShloMosaic.ValueIdx

variable {M K K' N : Nat}

/-- The layer: row r of A against the first K rows of W, plus W's last row. -/
def layer (hK : K' = K + 1) (A : (⟨2, ![M, K]⟩ : Shape).Idx → EReal) (W : (⟨2, ![K', N]⟩ : Shape).Idx → EReal) :
    (⟨2, ![M, N]⟩ : Shape).Idx → EReal :=
  fun j => (∑ k : Fin K, A (ix2 (j 0) k) * W (ix2 ⟨k.val, by have := k.isLt; omega⟩ (j 1)))
    + W (ix2 ⟨K, by omega⟩ (j 1))

/-- The rectifier: each entry's maximum with the value of the zero word. -/
def relu {s : Shape} (H : s.Idx → EReal) : s.Idx → EReal :=
  fun j => max (H j) (Ideal.ofBits .f32 0x00000000#32)

/-- Row r of a layer is decided by row r of its input: two inputs (of any numbers of rows) that agree on a row
    give layers that agree on that row. -/
theorem layer_row {M' : Nat} (hK : K' = K + 1) (A : (⟨2, ![M, K]⟩ : Shape).Idx → EReal)
    (A' : (⟨2, ![M', K]⟩ : Shape).Idx → EReal) (W : (⟨2, ![K', N]⟩ : Shape).Idx → EReal)
    (r : Fin M) (r' : Fin M') (h : ∀ k : Fin K, A (ix2 r k) = A' (ix2 r' k)) (c : Fin N) :
    layer hK A W (ix2 r c) = layer hK A' W (ix2 r' c) := by
  show (∑ k : Fin K, A (ix2 r k) * _) + _ = (∑ k : Fin K, A' (ix2 r' k) * _) + _
  simp only [h]
  rfl

/-- The cut spelling: the product with W's first K rows plus W's last row added to each row, at row r, is the layer
    of any input that has the same row, read there. -/
theorem affine_eq_layer {M' : Nat} (hK : K' = K + 1) (A : (⟨2, ![M, K]⟩ : Shape).Idx → EReal)
    (A' : (⟨2, ![M', K]⟩ : Shape).Idx → EReal) (B : (⟨2, ![K, N]⟩ : Shape).Idx → EReal)
    (b : (⟨2, ![1, N]⟩ : Shape).Idx → EReal) (W : (⟨2, ![K', N]⟩ : Shape).Idx → EReal)
    (hB : ∀ (k : Fin K) (c : Fin N), B (ix2 k c) = W (ix2 ⟨k.val, by have := k.isLt; omega⟩ c))
    (hb : ∀ c : Fin N, b (ix2 (0 : Fin 1) c) = W (ix2 ⟨K, by omega⟩ c))
    (r : Fin M) (r' : Fin M') (hA : ∀ k : Fin K, A (ix2 r k) = A' (ix2 r' k)) (c : Fin N) :
    Cert.PlainDot.affine A B b (ix2 r c) = layer hK A' W (ix2 r' c) := by
  show (∑ k : Fin K, A (ix2 r k) * B (ix2 k c)) + b (ix2 (0 : Fin 1) c)
    = (∑ k : Fin K, A' (ix2 r' k) * W (ix2 ⟨k.val, _⟩ c)) + W (ix2 ⟨K, _⟩ c)
  rw [hb]
  exact congrArg (· + _) (Finset.sum_congr rfl fun k _ => by rw [hA, hB])

/-- The same, rectified. -/
theorem affineRelu_eq_relu_layer {M' : Nat} (hK : K' = K + 1) (A : (⟨2, ![M, K]⟩ : Shape).Idx → EReal)
    (A' : (⟨2, ![M', K]⟩ : Shape).Idx → EReal) (B : (⟨2, ![K, N]⟩ : Shape).Idx → EReal)
    (b : (⟨2, ![1, N]⟩ : Shape).Idx → EReal) (W : (⟨2, ![K', N]⟩ : Shape).Idx → EReal)
    (hB : ∀ (k : Fin K) (c : Fin N), B (ix2 k c) = W (ix2 ⟨k.val, by have := k.isLt; omega⟩ c))
    (hb : ∀ c : Fin N, b (ix2 (0 : Fin 1) c) = W (ix2 ⟨K, by omega⟩ c))
    (r : Fin M) (r' : Fin M') (hA : ∀ k : Fin K, A (ix2 r k) = A' (ix2 r' k)) (c : Fin N) :
    Cert.PlainDot.affineRelu A B b (ix2 r c) = relu (layer hK A' W) (ix2 r' c) :=
  congrArg (max · (Ideal.ofBits .f32 0x00000000#32)) (affine_eq_layer hK A A' B b W hB hb r r' hA c)

/-- The ones-column spelling: the host's product of A, widened by a column of ones, with the whole of W is the
    layer.  The sum over the K + 1 inner indices splits off its last term; the first K terms read A through the
    joined array's first piece, the last reads the column of ones, and 1 * w = w. -/
theorem dot_ones_eq_layer (hK : K' = K + 1) (prec : Option ContractPrecision) (sched : HostSchedule)
    (A : FVec Ideal (⟨2, ![M, K]⟩ : Shape) .f32) (o : FVec Ideal (⟨2, ![M, 1]⟩ : Shape) .f32) (ho : ∀ i, o i = 1)
    (W : FVec Ideal (⟨2, ![K', N]⟩ : Shape) .f32)
    (h : Shape.Concatenates [(⟨2, ![M, K]⟩ : Shape), (⟨2, ![M, 1]⟩ : Shape)] (⟨2, ![M, K']⟩ : Shape) 1) :
    FloatOps.dotGeneral (DotDims.plain M K' N) prec sched
        (concatenate (⟨2, ![M, K']⟩ : Shape) 1 [⟨(⟨2, ![M, K]⟩ : Shape), A⟩, ⟨(⟨2, ![M, 1]⟩ : Shape), o⟩] h) W
      = layer hK A W := by
  funext j
  rw [Cert.PlainDot.dotGeneral_apply]
  subst hK
  rw [Fin.sum_univ_castSucc]
  refine congrArg₂ (· + ·) (Finset.sum_congr rfl fun k _ => ?_) ?_
  · refine congrArg (· * _) ?_
    refine concatenate_pair_apply_left (1 : Fin 2) A o h (ix2 (j 0) k.castSucc) rfl (ix2 (j 0) k) fun b => ?_
    match b with
    | ⟨0, _⟩ => rfl
    | ⟨1, _⟩ => rfl
  · have e : concatenate (⟨2, ![M, K + 1]⟩ : Shape) 1 [⟨(⟨2, ![M, K]⟩ : Shape), A⟩, ⟨(⟨2, ![M, 1]⟩ : Shape), o⟩] h
        (ix2 (j 0) (Fin.last K)) = o (ix2 (j 0) (0 : Fin 1)) := by
      refine concatenate_pair_apply_right (1 : Fin 2) A o h (ix2 (j 0) (Fin.last K)) rfl rfl (ix2 (j 0) (0 : Fin 1))
        (fun b hb => ?_) ?_
      · match b with
        | ⟨0, _⟩ => rfl
        | ⟨1, _⟩ => exact absurd rfl hb
      · show (0 : Nat) + K = K
        omega
    rw [e, ho, one_mul]
    rfl

/-- The host's maximum with a broadcast zero scalar is the rectifier. -/
theorem maximum_zero_eq_relu {s : Shape} (H : FVec Ideal s .f32)
    (hb : (⟨0, ![]⟩ : Shape).BroadcastsInDim s ![]) :
    maximumf H (broadcastInDim s ![] hb (constant (F := Ideal) (⟨0, ![]⟩ : Shape) .f32 0x00000000#32)) = relu H := by
  funext i
  show max (H i) (broadcastInDim s ![] hb (constant (F := Ideal) (⟨0, ![]⟩ : Shape) .f32 0x00000000#32) i) = _
  rw [broadcastInDim_scalar_apply]
  rfl

/-- A broadcast of the scalar one is one everywhere. -/
theorem ones_apply {s : Shape} (hb : (⟨0, ![]⟩ : Shape).BroadcastsInDim s ![]) (i : s.Idx) :
    broadcastInDim s ![] hb (constant (F := Ideal) (⟨0, ![]⟩ : Shape) .f32 0x3F800000#32) i = 1 := by
  rw [broadcastInDim_scalar_apply]
  exact Ideal.ofBits_one_f32

/-- The ones-column spelling with the column written as the host writes it: a broadcast of the scalar one. -/
theorem host_layer_eq (hK : K' = K + 1) (prec : Option ContractPrecision) (sched : HostSchedule)
    (A : FVec Ideal (⟨2, ![M, K]⟩ : Shape) .f32) (W : FVec Ideal (⟨2, ![K', N]⟩ : Shape) .f32)
    (hb : (⟨0, ![]⟩ : Shape).BroadcastsInDim (⟨2, ![M, 1]⟩ : Shape) ![])
    (h : Shape.Concatenates [(⟨2, ![M, K]⟩ : Shape), (⟨2, ![M, 1]⟩ : Shape)] (⟨2, ![M, K']⟩ : Shape) 1) :
    FloatOps.dotGeneral (DotDims.plain M K' N) prec sched
        (concatenate (⟨2, ![M, K']⟩ : Shape) 1 [⟨(⟨2, ![M, K]⟩ : Shape), A⟩, ⟨(⟨2, ![M, 1]⟩ : Shape),
          broadcastInDim (⟨2, ![M, 1]⟩ : Shape) ![] hb (constant (F := Ideal) (⟨0, ![]⟩ : Shape) .f32 0x3F800000#32)⟩] h) W
      = layer hK A W :=
  dot_ones_eq_layer hK prec sched A _ (ones_apply hb) W h

end Cert.Dense

end
-- ==== Proof.Network.lean ====
/-
  The network of this certificate: 784 inputs, rectified layers of 128 and 64 units, a linear layer of 10, on M rows,
  each layer's bias stored as the last row of its weight matrix (weights of 785, 129 and 65 rows).
-/
import proofs.«130961_j10574209483163_1_alg».proof.Proof.LibDense

noncomputable section

namespace Cert.Dense

open Idealize.ShloMosaic Idealize.ShloMosaic.ValueIdx

variable {M : Nat}

/-- The three layers on M rows: weights of 785, 129 and 65 rows, each with its bias as the last row. -/
def mlp (X : (⟨2, ![M, 784]⟩ : Shape).Idx → EReal) (W0 : (⟨2, ![785, 128]⟩ : Shape).Idx → EReal)
    (W1 : (⟨2, ![129, 64]⟩ : Shape).Idx → EReal) (W2 : (⟨2, ![65, 10]⟩ : Shape).Idx → EReal) :
    (⟨2, ![M, 10]⟩ : Shape).Idx → EReal :=
  layer (K := 64) (K' := 65) rfl (relu (layer (K := 128) (K' := 129) rfl (relu (layer (K := 784) (K' := 785) rfl X W0)) W1)) W2

/-- The cut spelling of all three layers on a block of rows: when the block's row p is the whole input's row r, and
    the cut weights and bias rows are the first rows and the last row of the whole weights, the block's result at
    (p, q) is the network's at (r, q). -/
theorem mlp_rows {Mb : Nat} (xb : (⟨2, ![Mb, 784]⟩ : Shape).Idx → EReal) (X : (⟨2, ![M, 784]⟩ : Shape).Idx → EReal)
    (w0 : (⟨2, ![784, 128]⟩ : Shape).Idx → EReal) (b0 : (⟨2, ![1, 128]⟩ : Shape).Idx → EReal)
    (w1 : (⟨2, ![128, 64]⟩ : Shape).Idx → EReal) (b1 : (⟨2, ![1, 64]⟩ : Shape).Idx → EReal)
    (w2 : (⟨2, ![64, 10]⟩ : Shape).Idx → EReal) (b2 : (⟨2, ![1, 10]⟩ : Shape).Idx → EReal)
    (W0 : (⟨2, ![785, 128]⟩ : Shape).Idx → EReal) (W1 : (⟨2, ![129, 64]⟩ : Shape).Idx → EReal)
    (W2 : (⟨2, ![65, 10]⟩ : Shape).Idx → EReal)
    (hw0 : ∀ (k : Fin 784) (c : Fin 128), w0 (ix2 k c) = W0 (ix2 ⟨k.val, by have := k.isLt; omega⟩ c))
    (hb0 : ∀ c : Fin 128, b0 (ix2 (0 : Fin 1) c) = W0 (ix2 ⟨784, by omega⟩ c))
    (hw1 : ∀ (k : Fin 128) (c : Fin 64), w1 (ix2 k c) = W1 (ix2 ⟨k.val, by have := k.isLt; omega⟩ c))
    (hb1 : ∀ c : Fin 64, b1 (ix2 (0 : Fin 1) c) = W1 (ix2 ⟨128, by omega⟩ c))
    (hw2 : ∀ (k : Fin 64) (c : Fin 10), w2 (ix2 k c) = W2 (ix2 ⟨k.val, by have := k.isLt; omega⟩ c))
    (hb2 : ∀ c : Fin 10, b2 (ix2 (0 : Fin 1) c) = W2 (ix2 ⟨64, by omega⟩ c))
    (p : Fin Mb) (r : Fin M) (hx : ∀ k : Fin 784, xb (ix2 p k) = X (ix2 r k)) (q : Fin 10) :
    Cert.PlainDot.affine (Cert.PlainDot.affineRelu (Cert.PlainDot.affineRelu xb w0 b0) w1 b1) w2 b2 (ix2 p q)
      = mlp X W0 W1 W2 (ix2 r q) :=
  affine_eq_layer (K := 64) (K' := 65) rfl _ _ w2 b2 W2 hw2 hb2 p r
    (fun k => affineRelu_eq_relu_layer (K := 128) (K' := 129) rfl _ _ w1 b1 W1 hw1 hb1 p r
      (fun k' => affineRelu_eq_relu_layer (K := 784) (K' := 785) rfl xb X w0 b0 W0 hw0 hb0 p r hx k') k) q

end Cert.Dense

end
-- ==== Proof.KernelValue.lean ====
/-
  The kernel, read.  Each of the 16 grid points sees 4096 rows of the input and the six arrays the host cut out of
  the weights (the first rows and the last row of each), and writes 4096 rows of the result: three products into a
  zero accumulator, each with a one-row array added to every row, the first two rectified.  That is the network's
  cut spelling on a block of rows, and a layer's row depends on the same row of its input only, so the block written
  at point t is rows 4096 t .. 4096 t + 4095 of the network of the whole arguments.  The 16 blocks tile the result.
-/
import proofs.«130961_j10574209483163_1_alg».proof.Proof.Gen.KernelIdeal.Value
import proofs.«130961_j10574209483163_1_alg».proof.Proof.Network
import Idealize.ShloMosaic.Lib.StableHlo.Run
import Idealize.ShloMosaic.Lib.ValueLayout

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's stored value: the three products with their added rows, the first two rectified. -/
theorem pay_eq (v0 : Vec Ideal S4096x784 .f32) (v1 : Vec Ideal S784x128 .f32) (v4 : Vec Ideal S1x128 .f32)
    (v10 : Vec Ideal S128x64 .f32) (v13 : Vec Ideal S1x64 .f32) (v19 : Vec Ideal S64x10 .f32) (v22 : Vec Ideal S1x10 .f32) :
    k0_pay1 (F := Ideal) v0 v1 v4 v10 v13 v19 v22
      = Cert.PlainDot.affine (Cert.PlainDot.affineRelu (Cert.PlainDot.affineRelu v0 v1 v4) v10 v13) v19 v22 := by
  unfold k0_pay1
  simp only [shapeCast_self]
  rw [← Cert.PlainDot.matmul_add_row_eq (M := 4096) (K := 64) (N := 10) none _ v19 v22 broadcasts_S1x10_S4096x10,
    ← Cert.PlainDot.matmul_add_row_max_eq (M := 4096) (K := 128) (N := 64) none _ v10 v13 broadcasts_S1x64_S4096x64,
    ← Cert.PlainDot.matmul_add_row_max_eq (M := 4096) (K := 784) (N := 128) none v0 v1 v4 broadcasts_S1x128_S4096x128]
  rfl

/-! ## The arrays the region finds: the host's cuts of the weights -/

theorem V_main_v0 (c : Dev nD) : (V m c main_v0 : S784x128.Idx → EReal)
    = extractStridedSlice S784x128 ![0, 0] (m ((c : Thread nD τ).loc main_arg1)) slices_S785x128_S784x128_0_0 := by
  dsimp only [Gen.V, Gen.hostOps0]; after_results

theorem V_main_v1 (c : Dev nD) : (V m c main_v1 : S1x128.Idx → EReal)
    = extractStridedSlice S1x128 ![784, 0] (m ((c : Thread nD τ).loc main_arg1)) slices_S785x128_S1x128_784_0 := by
  dsimp only [Gen.V, Gen.hostOps0]; after_results

theorem V_main_v2 (c : Dev nD) : (V m c main_v2 : S128x64.Idx → EReal)
    = extractStridedSlice S128x64 ![0, 0] (m ((c : Thread nD τ).loc main_arg2)) slices_S129x64_S128x64_0_0 := by
  dsimp only [Gen.V, Gen.hostOps0]; after_results

theorem V_main_v3 (c : Dev nD) : (V m c main_v3 : S1x64.Idx → EReal)
    = extractStridedSlice S1x64 ![128, 0] (m ((c : Thread nD τ).loc main_arg2)) slices_S129x64_S1x64_128_0 := by
  dsimp only [Gen.V, Gen.hostOps0]; after_results

theorem V_main_v4 (c : Dev nD) : (V m c main_v4 : S64x10.Idx → EReal)
    = extractStridedSlice S64x10 ![0, 0] (m ((c : Thread nD τ).loc main_arg3)) slices_S65x10_S64x10_0_0 := by
  dsimp only [Gen.V, Gen.hostOps0]; after_results

theorem V_main_v5 (c : Dev nD) : (V m c main_v5 : S1x10.Idx → EReal)
    = extractStridedSlice S1x10 ![64, 0] (m ((c : Thread nD τ).loc main_arg3)) slices_S65x10_S1x10_64_0 := by
  dsimp only [Gen.V, Gen.hostOps0]; after_results

/-! ## The windows' blocks -/

/-- The printed index maps, decided over the 16 points: the input's rows move with the output's, the input's and
    the output's column blocks and every weight window's block stay at zero, and the output's row block is below 16. -/
theorem idx_facts : ∀ t : Fin cfg0.N, win0_0.index t (0 : Fin 2) = win0_7.index t (0 : Fin 2)
    ∧ win0_0.index t (1 : Fin 2) = 0 ∧ win0_7.index t (1 : Fin 2) = 0 ∧ win0_7.index t (0 : Fin 2) ≤ 15
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every one of the 16 row blocks of the result is some point's. -/
theorem idx_onto : ∀ q0 : Fin 16, ∃ t : Fin cfg0.N, win0_7.index t = ![q0.val, 0] :=
  (by decide +kernel : ∀ q0 : Fin 16, ∃ t : Fin grid0.N, win0_7.index t = ![q0.val, 0])

/-- The input window's block at point t: row p of the block is row (block index) * 4096 + p of the input. -/
theorem xblk_apply (c : Dev nD) (t : Fin cfg0.N) (p : Fin 4096) (k : Fin 784) (r : Fin 65536)
    (hr : r.val = win0_7.index t (0 : Fin 2) * 4096 + p.val) :
    (iblk m c 0 t : Vec Ideal S4096x784 .f32) (ix2 p k)
      = (m ((c : Thread nD τ).loc main_arg0) : S65536x784.Idx → EReal) (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 4096 + 1 * p.val = r.val; omega
  | ⟨1, _⟩ => show win0_0.index t (1 : Fin 2) * 784 + 1 * k.val = k.val; omega

/-- The first weight's window holds the first 784 rows of the first weight matrix. -/
theorem w0blk_apply (c : Dev nD) (t : Fin cfg0.N) (k : Fin 784) (e : Fin 128) :
    (iblk m c 1 t : Vec Ideal S784x128 .f32) (ix2 k e)
      = (m ((c : Thread nD τ).loc main_arg1) : S785x128.Idx → EReal) (ix2 ⟨k.val, by have := k.isLt; omega⟩ e) := by
  obtain ⟨-, -, -, -, e0, e1, -⟩ := idx_facts t
  show V m c main_v0 (((cfg0.win 1).blk t).view.emb (ix2 k e)) = _
  rw [V_main_v0]
  have he : ((cfg0.win 1).blk t).view.emb (ix2 k e) = ix2 k e := funext fun a => Fin.ext (by
    match a with
    | ⟨0, _⟩ => show win0_1.index t (0 : Fin 2) * 784 + 1 * k.val = k.val; omega
    | ⟨1, _⟩ => show win0_1.index t (1 : Fin 2) * 128 + 1 * e.val = e.val; omega)
  rw [he]
  exact slice2_axis0_apply 0 _ slices_S785x128_S784x128_0_0 k e _ (by simp)

/-- The first bias window holds the last row of the first weight matrix. -/
theorem b0blk_apply (c : Dev nD) (t : Fin cfg0.N) (e : Fin 128) :
    (iblk m c 2 t : Vec Ideal S1x128 .f32) (ix2 (0 : Fin 1) e)
      = (m ((c : Thread nD τ).loc main_arg1) : S785x128.Idx → EReal) (ix2 ⟨784, by omega⟩ e) := by
  obtain ⟨-, -, -, -, -, -, e0, e1, -⟩ := idx_facts t
  show V m c main_v1 (((cfg0.win 2).blk t).view.emb (ix2 (0 : Fin 1) e)) = _
  rw [V_main_v1]
  have he : ((cfg0.win 2).blk t).view.emb (ix2 (0 : Fin 1) e) = ix2 (0 : Fin 1) e := funext fun a => Fin.ext (by
    match a with
    | ⟨0, _⟩ => show win0_2.index t (0 : Fin 2) * 1 + 1 * 0 = 0; omega
    | ⟨1, _⟩ => show win0_2.index t (1 : Fin 2) * 128 + 1 * e.val = e.val; omega)
  rw [he]
  exact slice2_axis0_apply 784 _ slices_S785x128_S1x128_784_0 (0 : Fin 1) e _ (by simp)

/-- The second weight's window holds the first 128 rows of the second weight matrix. -/
theorem w1blk_apply (c : Dev nD) (t : Fin cfg0.N) (k : Fin 128) (e : Fin 64) :
    (iblk m c 3 t : Vec Ideal S128x64 .f32) (ix2 k e)
      = (m ((c : Thread nD τ).loc main_arg2) : S129x64.Idx → EReal) (ix2 ⟨k.val, by have := k.isLt; omega⟩ e) := by
  obtain ⟨-, -, -, -, -, -, -, -, e0, e1, -⟩ := idx_facts t
  show V m c main_v2 (((cfg0.win 3).blk t).view.emb (ix2 k e)) = _
  rw [V_main_v2]
  have he : ((cfg0.win 3).blk t).view.emb (ix2 k e) = ix2 k e := funext fun a => Fin.ext (by
    match a with
    | ⟨0, _⟩ => show win0_3.index t (0 : Fin 2) * 128 + 1 * k.val = k.val; omega
    | ⟨1, _⟩ => show win0_3.index t (1 : Fin 2) * 64 + 1 * e.val = e.val; omega)
  rw [he]
  exact slice2_axis0_apply 0 _ slices_S129x64_S128x64_0_0 k e _ (by simp)

/-- The second bias window holds the last row of the second weight matrix. -/
theorem b1blk_apply (c : Dev nD) (t : Fin cfg0.N) (e : Fin 64) :
    (iblk m c 4 t : Vec Ideal S1x64 .f32) (ix2 (0 : Fin 1) e)
      = (m ((c : Thread nD τ).loc main_arg2) : S129x64.Idx → EReal) (ix2 ⟨128, by omega⟩ e) := by
  obtain ⟨-, -, -, -, -, -, -, -, -, -, e0, e1, -⟩ := idx_facts t
  show V m c main_v3 (((cfg0.win 4).blk t).view.emb (ix2 (0 : Fin 1) e)) = _
  rw [V_main_v3]
  have he : ((cfg0.win 4).blk t).view.emb (ix2 (0 : Fin 1) e) = ix2 (0 : Fin 1) e := funext fun a => Fin.ext (by
    match a with
    | ⟨0, _⟩ => show win0_4.index t (0 : Fin 2) * 1 + 1 * 0 = 0; omega
    | ⟨1, _⟩ => show win0_4.index t (1 : Fin 2) * 64 + 1 * e.val = e.val; omega)
  rw [he]
  exact slice2_axis0_apply 128 _ slices_S129x64_S1x64_128_0 (0 : Fin 1) e _ (by simp)

/-- The third weight's window holds the first 64 rows of the third weight matrix. -/
theorem w2blk_apply (c : Dev nD) (t : Fin cfg0.N) (k : Fin 64) (e : Fin 10) :
    (iblk m c 5 t : Vec Ideal S64x10 .f32) (ix2 k e)
      = (m ((c : Thread nD τ).loc main_arg3) : S65x10.Idx → EReal) (ix2 ⟨k.val, by have := k.isLt; omega⟩ e) := by
  obtain ⟨-, -, -, -, -, -, -, -, -, -, -, -, e0, e1, -⟩ := idx_facts t
  show V m c main_v4 (((cfg0.win 5).blk t).view.emb (ix2 k e)) = _
  rw [V_main_v4]
  have he : ((cfg0.win 5).blk t).view.emb (ix2 k e) = ix2 k e := funext fun a => Fin.ext (by
    match a with
    | ⟨0, _⟩ => show win0_5.index t (0 : Fin 2) * 64 + 1 * k.val = k.val; omega
    | ⟨1, _⟩ => show win0_5.index t (1 : Fin 2) * 10 + 1 * e.val = e.val; omega)
  rw [he]
  exact slice2_axis0_apply 0 _ slices_S65x10_S64x10_0_0 k e _ (by simp)

/-- The third bias window holds the last row of the third weight matrix. -/
theorem b2blk_apply (c : Dev nD) (t : Fin cfg0.N) (e : Fin 10) :
    (iblk m c 6 t : Vec Ideal S1x10 .f32) (ix2 (0 : Fin 1) e)
      = (m ((c : Thread nD τ).loc main_arg3) : S65x10.Idx → EReal) (ix2 ⟨64, by omega⟩ e) := by
  obtain ⟨-, -, -, -, -, -, -, -, -, -, -, -, -, -, e0, e1⟩ := idx_facts t
  show V m c main_v5 (((cfg0.win 6).blk t).view.emb (ix2 (0 : Fin 1) e)) = _
  rw [V_main_v5]
  have he : ((cfg0.win 6).blk t).view.emb (ix2 (0 : Fin 1) e) = ix2 (0 : Fin 1) e := funext fun a => Fin.ext (by
    match a with
    | ⟨0, _⟩ => show win0_6.index t (0 : Fin 2) * 1 + 1 * 0 = 0; omega
    | ⟨1, _⟩ => show win0_6.index t (1 : Fin 2) * 10 + 1 * e.val = e.val; omega)
  rw [he]
  exact slice2_axis0_apply 64 _ slices_S65x10_S1x10_64_0 (0 : Fin 1) e _ (by simp)

/-! ## What a point writes, and the whole result -/

/-- The network of the four arguments as launched. -/
abbrev result (c : Dev nD) : S65536x10.Idx → EReal :=
  Cert.Dense.mlp (m ((c : Thread nD τ).loc main_arg0)) (m ((c : Thread nD τ).loc main_arg1))
    (m ((c : Thread nD τ).loc main_arg2)) (m ((c : Thread nD τ).loc main_arg3))

/-- What point t writes back is its block of rows of the network of the whole arguments. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S4096x784) hz, View.ld_unit_zero (S := S784x128) hz,
    View.ld_unit_zero (S := S1x128) hz, View.ld_unit_zero (S := S128x64) hz, View.ld_unit_zero (S := S1x64) hz,
    View.ld_unit_zero (S := S64x10) hz, View.ld_unit_zero (S := S1x10) hz]
  rw [pay_eq]
  obtain ⟨-, -, e7, e8, -⟩ := idx_facts t
  funext j
  obtain ⟨p, q, rfl⟩ : ∃ (p : Fin 4096) (q : Fin 10), j = ix2 p q := ⟨j 0, j 1, eq_ix2 j⟩
  have hr : win0_7.index t (0 : Fin 2) * 4096 + p.val < 65536 := by have := p.isLt; omega
  have hemb : ((cfg0.win 7).blk t).view.emb (ix2 p q)
      = ix2 (⟨win0_7.index t (0 : Fin 2) * 4096 + p.val, hr⟩ : Fin 65536) q := funext fun a => Fin.ext (by
    match a with
    | ⟨0, _⟩ => show win0_7.index t (0 : Fin 2) * 4096 + 1 * p.val = win0_7.index t (0 : Fin 2) * 4096 + p.val; omega
    | ⟨1, _⟩ => show win0_7.index t (1 : Fin 2) * 10 + 1 * q.val = q.val; omega)
  show Cert.PlainDot.affine (Cert.PlainDot.affineRelu (Cert.PlainDot.affineRelu (iblk m c 0 t) (iblk m c 1 t) (iblk m c 2 t))
      (iblk m c 3 t) (iblk m c 4 t)) (iblk m c 5 t) (iblk m c 6 t) (ix2 p q)
    = result m c (((cfg0.win 7).blk t).view.emb (ix2 p q))
  rw [hemb]
  exact Cert.Dense.mlp_rows (M := 65536) (Mb := 4096) (iblk m c 0 t) (m ((c : Thread nD τ).loc main_arg0))
    (iblk m c 1 t) (iblk m c 2 t) (iblk m c 3 t) (iblk m c 4 t) (iblk m c 5 t) (iblk m c 6 t)
    (m ((c : Thread nD τ).loc main_arg1)) (m ((c : Thread nD τ).loc main_arg2)) (m ((c : Thread nD τ).loc main_arg3))
    (w0blk_apply m c t) (b0blk_apply m c t) (w1blk_apply m c t) (b1blk_apply m c t) (w2blk_apply m c t) (b2blk_apply m c t)
    p ⟨_, hr⟩ (fun k => xblk_apply m c t p k ⟨_, hr⟩ rfl) q

/-- An index of the result is in point t's block iff each coordinate is in the block's range on its axis. -/
theorem mem_blk (t : Fin cfg0.N) (i : S65536x10.Idx) :
    i ∈ ((cfg0.win 7).blk t).view.set ↔ ∀ a : Fin 2, win0_7.index t a * S4096x10.size a ≤ (i a).val
      ∧ (i a).val < win0_7.index t a * S4096x10.size a + S4096x10.size a := by
  show i ∈ ((View.whole main_v6).slice (win0_7.rect t)).set ↔ _
  rw [View.set_slice_whole, Rect.mem_set_unit]
  exact Iff.rfl

/-- The 16 blocks of 4096 rows cover the result: row r lies in the block of index r / 4096. -/
theorem cover (i : S65536x10.Idx) :
    ∃ t : Fin cfg0.N, (cfg0.win 7).flush t = true ∧ i ∈ ((cfg0.win 7).blk t).view.set := by
  have hi0 : (i 0).val < 65536 := (i 0).isLt
  have hi1 : (i 1).val < 10 := (i 1).isLt
  obtain ⟨t, ht⟩ := idx_onto ⟨(i 0).val / 4096, by omega⟩
  have q0 : win0_7.index t (0 : Fin 2) = (i 0).val / 4096 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 10 ≤ (i 1).val ∧ (i 1).val < win0_7.index t (1 : Fin 2) * 10 + 10; omega

/-- So after the run the result array is the network of the arguments. -/
theorem final (c : Dev nD) : (dats m 0 c).arrAt 7 cfg0.N = result m c :=
  (dats m 0 c).arrAt_eq_of_cover 7 (result m c) (fun t _ => flushed_eq m c t) cover

/-- The run, read: the result array at the network of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Hand

end
-- ==== Proof.RefValue.lean ====
/-
  The reference, read: its three products of an activation matrix widened by a column of ones with a whole weight
  matrix, the first two followed by the maximum with zero, are the three layers of the network, bias as last row.
-/
import proofs.«130961_j10574209483163_1_alg».proof.Proof.Gen.ReferenceIdeal.Run
import proofs.«130961_j10574209483163_1_alg».proof.Proof.Network

noncomputable section

namespace Cert.ReferenceIdeal.RefValue

open Cert.ReferenceIdeal Cert.ReferenceIdeal.Gen Idealize.ShloMosaic

/-- The term the reference's run ends with is the network of its four arguments: each product over the widened
    inner axis splits into the product over the first rows of the weight plus its last row, and each maximum with a
    broadcast zero is the rectifier. -/
theorem result_eq (X : FVec Ideal S65536x784 .f32) (W0 : FVec Ideal S785x128 .f32) (W1 : FVec Ideal S129x64 .f32)
    (W2 : FVec Ideal S65x10 .f32) :
    Host.dotGeneral dot_S65536x65_S65x10_S65536x10_1_0_0_1_n_n none (concatenate S65536x65 1 [⟨S65536x64, (maximumf (Host.dotGeneral dot_S65536x129_S129x64_S65536x64_1_0_0_1_n_n none (concatenate S65536x129 1 [⟨S65536x128, (maximumf (Host.dotGeneral dot_S65536x785_S785x128_S65536x128_1_0_0_1_n_n none (concatenate S65536x785 1 [⟨S65536x784, X⟩, ⟨S65536x1, (broadcastInDim S65536x1 ![] bcast_S_S65536x1 (constant S_ .f32 0x3F800000#32))⟩] concatenates_S65536x784_S65536x1_S65536x785_d1) W0) (broadcastInDim S65536x128 ![] bcast_S_S65536x128 (constant S_ .f32 0x00000000#32)))⟩, ⟨S65536x1, (broadcastInDim S65536x1 ![] bcast_S_S65536x1 (constant S_ .f32 0x3F800000#32))⟩] concatenates_S65536x128_S65536x1_S65536x129_d1) W1) (broadcastInDim S65536x64 ![] bcast_S_S65536x64 (constant S_ .f32 0x00000000#32)))⟩, ⟨S65536x1, (broadcastInDim S65536x1 ![] bcast_S_S65536x1 (constant S_ .f32 0x3F800000#32))⟩] concatenates_S65536x64_S65536x1_S65536x65_d1) W2
      = Cert.Dense.mlp X W0 W1 W2 := by
  have e0 := Cert.Dense.host_layer_eq (M := 65536) (K := 784) (K' := 785) (N := 128) rfl none .single X W0
    bcast_S_S65536x1 concatenates_S65536x784_S65536x1_S65536x785_d1
  have e1 := Cert.Dense.host_layer_eq (M := 65536) (K := 128) (K' := 129) (N := 64) rfl none .single
    (Cert.Dense.relu (Cert.Dense.layer (K := 784) (K' := 785) rfl X W0)) W1
    bcast_S_S65536x1 concatenates_S65536x128_S65536x1_S65536x129_d1
  have e2 := Cert.Dense.host_layer_eq (M := 65536) (K := 64) (K' := 65) (N := 10) rfl none .single
    (Cert.Dense.relu (Cert.Dense.layer (K := 128) (K' := 129) rfl
      (Cert.Dense.relu (Cert.Dense.layer (K := 784) (K' := 785) rfl X W0)) W1)) W2
    bcast_S_S65536x1 concatenates_S65536x64_S65536x1_S65536x65_d1
  show FloatOps.dotGeneral (DotDims.plain 65536 65 10) none .single (concatenate S65536x65 1 [⟨S65536x64, (maximumf (FloatOps.dotGeneral (DotDims.plain 65536 129 64) none .single (concatenate S65536x129 1 [⟨S65536x128, (maximumf (FloatOps.dotGeneral (DotDims.plain 65536 785 128) none .single (concatenate S65536x785 1 [⟨S65536x784, X⟩, ⟨S65536x1, (broadcastInDim S65536x1 ![] bcast_S_S65536x1 (constant S_ .f32 0x3F800000#32))⟩] concatenates_S65536x784_S65536x1_S65536x785_d1) W0) (broadcastInDim S65536x128 ![] bcast_S_S65536x128 (constant S_ .f32 0x00000000#32)))⟩, ⟨S65536x1, (broadcastInDim S65536x1 ![] bcast_S_S65536x1 (constant S_ .f32 0x3F800000#32))⟩] concatenates_S65536x128_S65536x1_S65536x129_d1) W1) (broadcastInDim S65536x64 ![] bcast_S_S65536x64 (constant S_ .f32 0x00000000#32)))⟩, ⟨S65536x1, (broadcastInDim S65536x1 ![] bcast_S_S65536x1 (constant S_ .f32 0x3F800000#32))⟩] concatenates_S65536x64_S65536x1_S65536x65_d1) W2 = _
  rw [e0, Cert.Dense.maximum_zero_eq_relu (s := S65536x128), e1, Cert.Dense.maximum_zero_eq_relu (s := S65536x64), e2]
  rfl

end Cert.ReferenceIdeal.RefValue

end
-- ==== Proof.lean ====
/-
  The kernel and its reference compute one function on the extended reals: a network of three dense layers
  (784 -> 128 -> 64 -> 10 on each of 65536 rows), the first two rectified, each layer's bias stored as the last row
  of its weight matrix.

  The reference appends a column of ones to each layer's input and multiplies with the whole weight matrix, so an
  entry is a sum over K + 1 inner indices whose last term is 1 * W (K, c).  The kernel multiplies with the first K
  rows and adds the last row.  The two agree by splitting off the last term of the sum and 1 * w = w, which hold for
  every extended real: no entry has to be finite, and the precondition is never opened.  The kernel works on blocks
  of 4096 rows; a layer's row depends on the same row of its input only, and the 16 blocks tile the result
  (Proof/LibDense.lean: the layer and its two spellings; Proof/Network.lean: the three layers; Proof/KernelValue.lean:
  the kernel's blocks and run; Proof/RefValue.lean: the reference's term).  The idealization rewrote nothing, so its conjunct is trivial.
-/
import proofs.«130961_j10574209483163_1_alg».proof.Defs
import proofs.«130961_j10574209483163_1_alg».proof.Proof.Gen.Kernel
import proofs.«130961_j10574209483163_1_alg».proof.Proof.Gen.Kernel.Frame
import proofs.«130961_j10574209483163_1_alg».proof.Proof.Gen.KernelIdeal
import proofs.«130961_j10574209483163_1_alg».proof.Proof.Gen.KernelIdeal.Frame
import proofs.«130961_j10574209483163_1_alg».proof.Proof.Gen.ReferenceIdeal
import proofs.«130961_j10574209483163_1_alg».proof.Proof.Gen.ReferenceIdeal.Run
import proofs.«130961_j10574209483163_1_alg».proof.Proof.Gen.Pre_finite_inputs
import proofs.«130961_j10574209483163_1_alg».proof.Proof.KernelValue
import proofs.«130961_j10574209483163_1_alg».proof.Proof.RefValue
import Idealize.ShloMosaic.Adequacy
import Idealize.ShloMosaic.Init

noncomputable section

namespace Cert.Proof

open Idealize.ShloMosaic Idealize.SL.Sem

/-- Both programs, from memories that agree on the four arguments, end with the network of those arguments in
    their result arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
